-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x1024x1024 : Shape := ⟨3, ![32, 1024, 1024]⟩
abbrev S3072x1024 : Shape := ⟨2, ![3072, 1024]⟩
abbrev S3072 : Shape := ⟨1, ![3072]⟩
abbrev S5x1024 : Shape := ⟨2, ![5, 1024]⟩
abbrev S1024x5 : Shape := ⟨2, ![1024, 5]⟩
abbrev S_ : Shape := ⟨0, ![]⟩

class Facts : Prop where
  bcast_S_S32x1024x1024 : S_.BroadcastsInDim S32x1024x1024 (![] : Fin 0 → Fin S32x1024x1024.rank)
  reducesTo_S32x1024x1024_S_d0_1_2 : S32x1024x1024.ReducesTo [0, 1, 2] S_
  h_S_ : 0 < S_.numel
  bcast_S_S3072x1024 : S_.BroadcastsInDim S3072x1024 (![] : Fin 0 → Fin S3072x1024.rank)
  reducesTo_S3072x1024_S_d0_1 : S3072x1024.ReducesTo [0, 1] S_
  bcast_S_S3072 : S_.BroadcastsInDim S3072 (![] : Fin 0 → Fin S3072.rank)
  reducesTo_S3072_S_d0 : S3072.ReducesTo [0] S_
  bcast_S_S5x1024 : S_.BroadcastsInDim S5x1024 (![] : Fin 0 → Fin S5x1024.rank)
  reducesTo_S5x1024_S_d0_1 : S5x1024.ReducesTo [0, 1] S_
  bcast_S_S1024x5 : S_.BroadcastsInDim S1024x5 (![] : Fin 0 → Fin S1024x5.rank)
  reducesTo_S1024x5_S_d0_1 : S1024x5.ReducesTo [0, 1] S_
  reducesTo_S_S_d : S_.ReducesTo [] S_

variable [Facts]

def fn_part2 {F : FTy → Type} [FloatOps F] (main_arg7 : FVec F S_ .f32) (main_arg8 : FVec F S_ .f32) (main_v33 : IVec S_ 1) : IVec S_ 1 :=
  let main_v34 : FVec F S_ .f32 := Host.absf main_arg7
  let main_cst_12 : FVec F S_ .f32 := constant S_ .f32 0x7F800000#32
  let main_v35 : IVec S_ 1 := cmpf .olt main_v34 main_cst_12
  let main_c_13 : IVec S_ 1 := constantI S_ 1 1#1
  let main_v36 : IVec S_ 1 := (fun x v => Host.reduce IntOp.andi x v reducesTo_S_S_d h_S_) main_v35 main_c_13
  let main_v37 : IVec S_ 1 := andi main_v33 main_v36
  let main_v38 : FVec F S_ .f32 := Host.absf main_arg8
  let main_cst_14 : FVec F S_ .f32 := constant S_ .f32 0x7F800000#32
  let main_v39 : IVec S_ 1 := cmpf .olt main_v38 main_cst_14
  let main_c_15 : IVec S_ 1 := constantI S_ 1 1#1
  let main_v40 : IVec S_ 1 := (fun x v => Host.reduce IntOp.andi x v reducesTo_S_S_d h_S_) main_v39 main_c_15
  let main_v41 : IVec S_ 1 := andi main_v37 main_v40
  main_v41

def fn_part1 {F : FTy → Type} [FloatOps F] (main_arg4 : FVec F S5x1024 .f32) (main_arg5 : FVec F S1024x5 .f32) (main_arg6 : FVec F S1024x5 .f32) (main_arg7 : FVec F S_ .f32) (main_arg8 : FVec F S_ .f32) (main_v13 : IVec S_ 1) (main_v16 : IVec S5x1024 1) : IVec S_ 1 :=
  let main_c_5 : IVec S_ 1 := constantI S_ 1 1#1
  let main_v17 : IVec S_ 1 := (fun x v => Host.reduce IntOp.andi x v reducesTo_S5x1024_S_d0_1 h_S_) main_v16 main_c_5
  let main_v18 : IVec S_ 1 := andi main_v13 main_v17
  let main_v19 : FVec F S5x1024 .f32 := Host.absf main_arg4
  let main_cst_6 : FVec F S_ .f32 := constant S_ .f32 0x7F800000#32
  let main_v20 : FVec F S5x1024 .f32 := broadcastInDim S5x1024 ![] bcast_S_S5x1024 main_cst_6
  let main_v21 : IVec S5x1024 1 := cmpf .olt main_v19 main_v20
  let main_c_7 : IVec S_ 1 := constantI S_ 1 1#1
  let main_v22 : IVec S_ 1 := (fun x v => Host.reduce IntOp.andi x v reducesTo_S5x1024_S_d0_1 h_S_) main_v21 main_c_7
  let main_v23 : IVec S_ 1 := andi main_v18 main_v22
  let main_v24 : FVec F S1024x5 .f32 := Host.absf main_arg5
  let main_cst_8 : FVec F S_ .f32 := constant S_ .f32 0x7F800000#32
  let main_v25 : FVec F S1024x5 .f32 := broadcastInDim S1024x5 ![] bcast_S_S1024x5 main_cst_8
  let main_v26 : IVec S1024x5 1 := cmpf .olt main_v24 main_v25
  let main_c_9 : IVec S_ 1 := constantI S_ 1 1#1
  let main_v27 : IVec S_ 1 := (fun x v => Host.reduce IntOp.andi x v reducesTo_S1024x5_S_d0_1 h_S_) main_v26 main_c_9
  let main_v28 : IVec S_ 1 := andi main_v23 main_v27
  let main_v29 : FVec F S1024x5 .f32 := Host.absf main_arg6
  let main_cst_10 : FVec F S_ .f32 := constant S_ .f32 0x7F800000#32
  let main_v30 : FVec F S1024x5 .f32 := broadcastInDim S1024x5 ![] bcast_S_S1024x5 main_cst_10
  let main_v31 : IVec S1024x5 1 := cmpf .olt main_v29 main_v30
  let main_c_11 : IVec S_ 1 := constantI S_ 1 1#1
  let main_v32 : IVec S_ 1 := (fun x v => Host.reduce IntOp.andi x v reducesTo_S1024x5_S_d0_1 h_S_) main_v31 main_c_11
  let main_v33 : IVec S_ 1 := andi main_v28 main_v32
  fn_part2 (F := F) main_arg7 main_arg8 main_v33

def fn {F : FTy → Type} [FloatOps F] (main_arg0 : FVec F S32x1024x1024 .f32) (main_arg1 : FVec F S3072x1024 .f32) (main_arg2 : FVec F S3072 .f32) (main_arg3 : FVec F S5x1024 .f32) (main_arg4 : FVec F S5x1024 .f32) (main_arg5 : FVec F S1024x5 .f32) (main_arg6 : FVec F S1024x5 .f32) (main_arg7 : FVec F S_ .f32) (main_arg8 : FVec F S_ .f32) : IVec S_ 1 :=
  let main_v0 : FVec F S32x1024x1024 .f32 := Host.absf main_arg0
  let main_cst : FVec F S_ .f32 := constant S_ .f32 0x7F800000#32
  let main_v1 : FVec F S32x1024x1024 .f32 := broadcastInDim S32x1024x1024 ![] bcast_S_S32x1024x1024 main_cst
  let main_v2 : IVec S32x1024x1024 1 := cmpf .olt main_v0 main_v1
  let main_c : IVec S_ 1 := constantI S_ 1 1#1
  let main_v3 : IVec S_ 1 := (fun x v => Host.reduce IntOp.andi x v reducesTo_S32x1024x1024_S_d0_1_2 h_S_) main_v2 main_c
  let main_v4 : FVec F S3072x1024 .f32 := Host.absf main_arg1
  let main_cst_0 : FVec F S_ .f32 := constant S_ .f32 0x7F800000#32
  let main_v5 : FVec F S3072x1024 .f32 := broadcastInDim S3072x1024 ![] bcast_S_S3072x1024 main_cst_0
  let main_v6 : IVec S3072x1024 1 := cmpf .olt main_v4 main_v5
  let main_c_1 : IVec S_ 1 := constantI S_ 1 1#1
  let main_v7 : IVec S_ 1 := (fun x v => Host.reduce IntOp.andi x v reducesTo_S3072x1024_S_d0_1 h_S_) main_v6 main_c_1
  let main_v8 : IVec S_ 1 := andi main_v3 main_v7
  let main_v9 : FVec F S3072 .f32 := Host.absf main_arg2
  let main_cst_2 : FVec F S_ .f32 := constant S_ .f32 0x7F800000#32
  let main_v10 : FVec F S3072 .f32 := broadcastInDim S3072 ![] bcast_S_S3072 main_cst_2
  let main_v11 : IVec S3072 1 := cmpf .olt main_v9 main_v10
  let main_c_3 : IVec S_ 1 := constantI S_ 1 1#1
  let main_v12 : IVec S_ 1 := (fun x v => Host.reduce IntOp.andi x v reducesTo_S3072_S_d0 h_S_) main_v11 main_c_3
  let main_v13 : IVec S_ 1 := andi main_v8 main_v12
  let main_v14 : FVec F S5x1024 .f32 := Host.absf main_arg3
  let main_cst_4 : FVec F S_ .f32 := constant S_ .f32 0x7F800000#32
  let main_v15 : FVec F S5x1024 .f32 := broadcastInDim S5x1024 ![] bcast_S_S5x1024 main_cst_4
  let main_v16 : IVec S5x1024 1 := cmpf .olt main_v14 main_v15
  fn_part1 (F := F) main_arg4 main_arg5 main_arg6 main_arg7 main_arg8 main_v13 main_v16
-- ==== Kernel.lean ====
abbrev S32x1024x1024 : Shape := ⟨3, ![32, 1024, 1024]⟩
abbrev S3072x1024 : Shape := ⟨2, ![3072, 1024]⟩
abbrev S3072 : Shape := ⟨1, ![3072]⟩
abbrev S5x1024 : Shape := ⟨2, ![5, 1024]⟩
abbrev S1024x5 : Shape := ⟨2, ![1024, 5]⟩
abbrev S_ : Shape := ⟨0, ![]⟩
abbrev S1024x1024 : Shape := ⟨2, ![1024, 1024]⟩
abbrev S2048x1024 : Shape := ⟨2, ![2048, 1024]⟩
abbrev S1024x3072 : Shape := ⟨2, ![1024, 3072]⟩
abbrev S1x3072 : Shape := ⟨2, ![1, 3072]⟩
abbrev S32768x1024 : Shape := ⟨2, ![32768, 1024]⟩
abbrev S32768x3072 : Shape := ⟨2, ![32768, 3072]⟩
abbrev S32x1024x3072 : Shape := ⟨3, ![32, 1024, 3072]⟩

abbrev nBuf : Space → Nat
  | .hbm => 26
  | .vmem => 6
  | .smem => 0
  | _ => 0

abbrev bufTy : (tb : Table) → Fin (tcTables nBuf tb) → BufTy
  | .hbm, ⟨0, _⟩ => ⟨S32x1024x1024, .f32⟩
  | .hbm, ⟨1, _⟩ => ⟨S3072x1024, .f32⟩
  | .hbm, ⟨2, _⟩ => ⟨S3072, .f32⟩
  | .hbm, ⟨3, _⟩ => ⟨S5x1024, .f32⟩
  | .hbm, ⟨4, _⟩ => ⟨S5x1024, .f32⟩
  | .hbm, ⟨5, _⟩ => ⟨S1024x5, .f32⟩
  | .hbm, ⟨6, _⟩ => ⟨S1024x5, .f32⟩
  | .hbm, ⟨7, _⟩ => ⟨S_, .f32⟩
  | .hbm, ⟨8, _⟩ => ⟨S_, .f32⟩
  | .hbm, ⟨9, _⟩ => ⟨S1024x1024, .f32⟩
  | .hbm, ⟨10, _⟩ => ⟨S1024x1024, .f32⟩
  | .hbm, ⟨11, _⟩ => ⟨S1024x1024, .f32⟩
  | .hbm, ⟨12, _⟩ => ⟨S1024x1024, .f32⟩
  | .hbm, ⟨13, _⟩ => ⟨S1024x1024, .f32⟩
  | .hbm, ⟨14, _⟩ => ⟨S1024x1024, .f32⟩
  | .hbm, ⟨15, _⟩ => ⟨S2048x1024, .f32⟩
  | .hbm, ⟨16, _⟩ => ⟨S_, .f32⟩
  | .hbm, ⟨17, _⟩ => ⟨S1024x1024, .f32⟩
  | .hbm, ⟨18, _⟩ => ⟨S3072x1024, .f32⟩
  | .hbm, ⟨19, _⟩ => ⟨S3072x1024, .f32⟩
  | .hbm, ⟨20, _⟩ => ⟨S1024x3072, .f32⟩
  | .hbm, ⟨21, _⟩ => ⟨S1024x3072, .bf16⟩
  | .hbm, ⟨22, _⟩ => ⟨S1x3072, .f32⟩
  | .hbm, ⟨23, _⟩ => ⟨S32768x1024, .f32⟩
  | .hbm, ⟨24, _⟩ => ⟨S32768x3072, .f32⟩
  | .hbm, ⟨25, _⟩ => ⟨S32x1024x3072, .f32⟩
  | .local _ .vmem, ⟨0, _⟩ => ⟨S1024x1024, .f32⟩
  | .local _ .vmem, ⟨1, _⟩ => ⟨S1024x1024, .f32⟩
  | .local _ .vmem, ⟨2, _⟩ => ⟨S1024x3072, .bf16⟩
  | .local _ .vmem, ⟨3, _⟩ => ⟨S1x3072, .f32⟩
  | .local _ .vmem, ⟨4, _⟩ => ⟨S1024x3072, .f32⟩
  | .local _ .vmem, ⟨5, _⟩ => ⟨S1024x3072, .f32⟩
  | _, _ => ⟨S32x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x3072 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x3072 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S_S1024x1024 : S_.BroadcastsInDim S1024x1024 (![] : Fin 0 → Fin S1024x1024.rank)
  concatenates_S1024x1024_S1024x1024_S2048x1024_d0 : Shape.Concatenates [S1024x1024, S1024x1024] S2048x1024 0
  concatenates_S1024x1024_S2048x1024_S3072x1024_d0 : Shape.Concatenates [S1024x1024, S2048x1024] S3072x1024 0
  transposes_S3072x1024_S1024x3072_1_0 : S3072x1024.Transposes [1, 0] S1024x3072
  bitsLt_bf16_f32 : FTy.bits .bf16 < FTy.bits .f32
  shapeCasts_S3072_S1x3072 : S3072.ShapeCasts S1x3072
  shapeCasts_S32x1024x1024_S32768x1024 : S32x1024x1024.ShapeCasts S32768x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x3072_S1024x3072_0_0 : ∀ a, (![0, 0] : Fin 2 → Nat) a + S1024x3072.size a ≤ S1024x3072.size a
  h_S1024x3072 : 0 < S1024x3072.numel
  shapeCasts_S1024x3072_S1024x3072 : S1024x3072.ShapeCasts S1024x3072
  inb_S1x3072_S1x3072_0_0 : ∀ a, (![0, 0] : Fin 2 → Nat) a + S1x3072.size a ≤ S1x3072.size a
  h_S1x3072 : 0 < S1x3072.numel
  shapeCasts_S1x3072_S1x3072 : S1x3072.ShapeCasts S1x3072
  broadcasts_S1x3072_S1024x3072 : S1x3072.Broadcasts S1024x3072
  shapeCasts_S32768x3072_S32x1024x3072 : S32768x3072.ShapeCasts S32x1024x3072
  dot_S1024x5_S5x1024_S1024x1024_1_0_0_1_n_n_wf : DotDims.WF S1024x5 S5x1024 S1024x1024 [1] [0] [0] [1] [] []
  dot_S1024x1024_S1024x3072_S1024x3072_1_0_0_1_n_n_wf : DotDims.WF S1024x1024 S1024x3072 S1024x3072 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S32768x1024.size a
  hwx0_0 : ∀ i : grid0.Coords, EltTy.bits .f32 = 32 ∨ (Rect.block (s := S32768x1024) S1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x3072.size a ≤ S1024x3072.size a
  hwx0_1 : ∀ i : grid0.Coords, EltTy.bits .bf16 = 32 ∨ (Rect.block (s := S1024x3072) S1024x3072.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x3072.size a ≤ S1x3072.size a
  hwx0_2 : ∀ i : grid0.Coords, EltTy.bits .f32 = 32 ∨ (Rect.block (s := S1x3072) S1x3072.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x3072.size a ≤ S32768x3072.size a
  hwx0_3 : ∀ i : grid0.Coords, EltTy.bits .f32 = 32 ∨ (Rect.block (s := S32768x3072) S1024x3072.size (cc0_transform_3 i) (hinb0_3 i)).WholeWords (EltTy.packing .f32)

variable [Facts₀]

def dot_S1024x5_S5x1024_S1024x1024_1_0_0_1_n_n : DotDims S1024x5 S5x1024 S1024x1024 where
  lhsContracting := [1]
  rhsContracting := [0]
  lhsNonContracting := [0]
  rhsNonContracting := [1]
  lhsBatch := []
  rhsBatch := []
  wf := dot_S1024x5_S5x1024_S1024x1024_1_0_0_1_n_n_wf
def dot_S1024x1024_S1024x3072_S1024x3072_1_0_0_1_n_n : DotDims S1024x1024 S1024x3072 S1024x3072 where
  lhsContracting := [1]
  rhsContracting := [0]
  lhsNonContracting := [0]
  rhsNonContracting := [1]
  lhsBatch := []
  rhsBatch := []
  wf := dot_S1024x1024_S1024x3072_S1024x3072_1_0_0_1_n_n_wf

abbrev win0_0 : Pipeline.Window sig grid0 :=
  Pipeline.Window.ofSpec (Memref.whole main_v13) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v11) S1024x3072.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v12) S1x3072.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S1024x3072.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S32x1024x1024 : Shape := ⟨3, ![32, 1024, 1024]⟩
abbrev S3072x1024 : Shape := ⟨2, ![3072, 1024]⟩
abbrev S3072 : Shape := ⟨1, ![3072]⟩
abbrev S5x1024 : Shape := ⟨2, ![5, 1024]⟩
abbrev S1024x5 : Shape := ⟨2, ![1024, 5]⟩
abbrev S_ : Shape := ⟨0, ![]⟩
abbrev S1024x1024 : Shape := ⟨2, ![1024, 1024]⟩
abbrev S2048x1024 : Shape := ⟨2, ![2048, 1024]⟩
abbrev S32x1024x3072 : Shape := ⟨3, ![32, 1024, 3072]⟩
abbrev S1x1x3072 : Shape := ⟨3, ![1, 1, 3072]⟩

abbrev nBuf : Space → Nat
  | .hbm => 24
  | .vmem => 0
  | .smem => 0
  | _ => 0

abbrev bufTy : (tb : Table) → Fin (tcTables nBuf tb) → BufTy
  | .hbm, ⟨0, _⟩ => ⟨S32x1024x1024, .f32⟩
  | .hbm, ⟨1, _⟩ => ⟨S3072x1024, .f32⟩
  | .hbm, ⟨2, _⟩ => ⟨S3072, .f32⟩
  | .hbm, ⟨3, _⟩ => ⟨S5x1024, .f32⟩
  | .hbm, ⟨4, _⟩ => ⟨S5x1024, .f32⟩
  | .hbm, ⟨5, _⟩ => ⟨S1024x5, .f32⟩
  | .hbm, ⟨6, _⟩ => ⟨S1024x5, .f32⟩
  | .hbm, ⟨7, _⟩ => ⟨S_, .f32⟩
  | .hbm, ⟨8, _⟩ => ⟨S_, .f32⟩
  | .hbm, ⟨9, _⟩ => ⟨S1024x1024, .f32⟩
  | .hbm, ⟨10, _⟩ => ⟨S1024x1024, .f32⟩
  | .hbm, ⟨11, _⟩ => ⟨S1024x1024, .f32⟩
  | .hbm, ⟨12, _⟩ => ⟨S1024x1024, .f32⟩
  | .hbm, ⟨13, _⟩ => ⟨S1024x1024, .f32⟩
  | .hbm, ⟨14, _⟩ => ⟨S1024x1024, .f32⟩
  | .hbm, ⟨15, _⟩ => ⟨S2048x1024, .f32⟩
  | .hbm, ⟨16, _⟩ => ⟨S_, .f32⟩
  | .hbm, ⟨17, _⟩ => ⟨S1024x1024, .f32⟩
  | .hbm, ⟨18, _⟩ => ⟨S3072x1024, .f32⟩
  | .hbm, ⟨19, _⟩ => ⟨S3072x1024, .f32⟩
  | .hbm, ⟨20, _⟩ => ⟨S32x1024x3072, .f32⟩
  | .hbm, ⟨21, _⟩ => ⟨S1x1x3072, .f32⟩
  | .hbm, ⟨22, _⟩ => ⟨S32x1024x3072, .f32⟩
  | .hbm, ⟨23, _⟩ => ⟨S32x1024x3072, .f32⟩
  | _, _ => ⟨S32x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩

abbrev nD : Nat := 1
abbrev τ : Topo := Topo.v7x

variable {F : FTy → Type} [FloatOps F]

class Facts₀ : Prop where
  bcast_S_S1024x1024 : S_.BroadcastsInDim S1024x1024 (![] : Fin 0 → Fin S1024x1024.rank)
  concatenates_S1024x1024_S1024x1024_S2048x1024_d0 : Shape.Concatenates [S1024x1024, S1024x1024] S2048x1024 0
  concatenates_S1024x1024_S2048x1024_S3072x1024_d0 : Shape.Concatenates [S1024x1024, S2048x1024] S3072x1024 0
  bcast_S3072_S1x1x3072_2 : S3072.BroadcastsInDim S1x1x3072 (![2] : Fin 1 → Fin S1x1x3072.rank)
  bcast_S1x1x3072_S32x1024x3072_0_1_2 : S1x1x3072.BroadcastsInDim S32x1024x3072 (![0, 1, 2] : Fin 3 → Fin S32x1024x3072.rank)
  dot_S1024x5_S5x1024_S1024x1024_1_0_0_1_n_n_wf : DotDims.WF S1024x5 S5x1024 S1024x1024 [1] [0] [0] [1] [] []
  dot_S32x1024x1024_S3072x1024_S32x1024x3072_2_1_01_0_n_n_wf : DotDims.WF S32x1024x1024 S3072x1024 S32x1024x3072 [2] [1] [0, 1] [0] [] []

variable [Facts₀]

def dot_S1024x5_S5x1024_S1024x1024_1_0_0_1_n_n : DotDims S1024x5 S5x1024 S1024x1024 where
  lhsContracting := [1]
  rhsContracting := [0]
  lhsNonContracting := [0]
  rhsNonContracting := [1]
  lhsBatch := []
  rhsBatch := []
  wf := dot_S1024x5_S5x1024_S1024x1024_1_0_0_1_n_n_wf
def dot_S32x1024x1024_S3072x1024_S32x1024x3072_2_1_01_0_n_n : DotDims S32x1024x1024 S3072x1024 S32x1024x3072 where
  lhsContracting := [2]
  rhsContracting := [1]
  lhsNonContracting := [0, 1]
  rhsNonContracting := [0]
  lhsBatch := []
  rhsBatch := []
  wf := dot_S32x1024x1024_S3072x1024_S32x1024x3072_2_1_01_0_n_n_wf

class Facts : Prop extends Facts₀ where

variable [Facts]
-- ==== Proof.Payload.lean ====
/-
  What one grid point's body stores, read at an index.

  The body loads a block `a` of 1024 rows of activations (1024 × 1024), the whole transposed weight `w` (1024 × 3072) and
  the one-row bias `b` (1 × 3072), and stores

      a ⬝ w + (b broadcast down the rows).

  The change of float format on `a` is the identity on extended reals, the matrix product into a zero accumulator is the
  plain sum over the contracted axis, and the broadcast reads row 0 of `b`. So entry (p, q) of what is stored is

      (Σ_{k < 1024} a[p, k] · w[k, q]) + b[0, q].
-/
import proofs.«169608_j88158498718371_1_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.Body

open Cert.KernelIdeal Cert.KernelIdeal.Gen Idealize.ShloMosaic Idealize.ShloMosaic.ValueIdx

/-! ## The product's operand indices, coordinate by coordinate

At output index `i = (row, col)` and contraction index `q`, the left operand is read at `(row, q)` and the right one at
`(q, col)`. -/

theorem lhs_row (i : S1024x3072.Idx) (q : dot_S1024x1024_S1024x3072_S1024x3072_1_0_0_1_n_n.contr.Idx) :
    (dot_S1024x1024_S1024x3072_S1024x3072_1_0_0_1_n_n.lhsIdx i q 0).val = (i 0).val := by
  unfold DotDims.lhsIdx
  rw [dif_neg (show ¬(0 : Fin S1024x1024.rank) ∈ dot_S1024x1024_S1024x3072_S1024x3072_1_0_0_1_n_n.lhsBatch by decide), dif_pos (show (0 : Fin S1024x1024.rank) ∈ dot_S1024x1024_S1024x3072_S1024x3072_1_0_0_1_n_n.lhsNonContracting by decide)]
  rfl
theorem lhs_contr (i : S1024x3072.Idx) (q : dot_S1024x1024_S1024x3072_S1024x3072_1_0_0_1_n_n.contr.Idx) :
    (dot_S1024x1024_S1024x3072_S1024x3072_1_0_0_1_n_n.lhsIdx i q 1).val = (q ⟨0, by decide⟩).val :=
  dot_S1024x1024_S1024x3072_S1024x3072_1_0_0_1_n_n.lhsIdx_val_of_single rfl i q
theorem rhs_contr (i : S1024x3072.Idx) (q : dot_S1024x1024_S1024x3072_S1024x3072_1_0_0_1_n_n.contr.Idx) :
    (dot_S1024x1024_S1024x3072_S1024x3072_1_0_0_1_n_n.rhsIdx i q 0).val = (q ⟨0, by decide⟩).val :=
  dot_S1024x1024_S1024x3072_S1024x3072_1_0_0_1_n_n.rhsIdx_val_of_single rfl i q
theorem rhs_col (i : S1024x3072.Idx) (q : dot_S1024x1024_S1024x3072_S1024x3072_1_0_0_1_n_n.contr.Idx) :
    (dot_S1024x1024_S1024x3072_S1024x3072_1_0_0_1_n_n.rhsIdx i q 1).val = (i 1).val := by
  unfold DotDims.rhsIdx
  rw [dif_neg (show ¬(1 : Fin S1024x3072.rank) ∈ dot_S1024x1024_S1024x3072_S1024x3072_1_0_0_1_n_n.rhsBatch by decide), dif_pos (show (1 : Fin S1024x3072.rank) ∈ dot_S1024x1024_S1024x3072_S1024x3072_1_0_0_1_n_n.rhsNonContracting by decide)]
  rfl

/-- The matrix product into a zero accumulator, at entry (p, q): the sum over `k` of `a[p, k] · w[k, q]`. -/
theorem product_at (a : FVec Ideal S1024x1024 .bf16) (w : FVec Ideal S1024x3072 .bf16) (p : Fin 1024) (q : Fin 3072) :
    matmul dot_S1024x1024_S1024x3072_S1024x3072_1_0_0_1_n_n none a w (constant (F := Ideal) S1024x3072 .f32 0x00000000#32) (ix2 p q)
      = ∑ k : Fin 1024, a (ix2 p k) * w (ix2 k q) := by
  refine (Ideal.matmul_constant_zero_apply dot_S1024x1024_S1024x3072_S1024x3072_1_0_0_1_n_n none a w (ix2 p q)).trans ?_
  rw [← Equiv.sum_comp (contrEquiv1 dot_S1024x1024_S1024x3072_S1024x3072_1_0_0_1_n_n 1024 rfl rfl).symm]
  refine Finset.sum_congr rfl fun k _ => ?_
  have hk := contrEquiv1_symm_val dot_S1024x1024_S1024x3072_S1024x3072_1_0_0_1_n_n 1024 rfl rfl k
  have el : dot_S1024x1024_S1024x3072_S1024x3072_1_0_0_1_n_n.lhsIdx (ix2 p q) ((contrEquiv1 dot_S1024x1024_S1024x3072_S1024x3072_1_0_0_1_n_n 1024 rfl rfl).symm k) = ix2 p k := funext fun d => Fin.ext (by
    match d with
    | ⟨0, _⟩ => exact lhs_row _ _
    | ⟨1, _⟩ => exact (lhs_contr _ _).trans hk)
  have er : dot_S1024x1024_S1024x3072_S1024x3072_1_0_0_1_n_n.rhsIdx (ix2 p q) ((contrEquiv1 dot_S1024x1024_S1024x3072_S1024x3072_1_0_0_1_n_n 1024 rfl rfl).symm k) = ix2 k q := funext fun d => Fin.ext (by
    match d with
    | ⟨0, _⟩ => exact (rhs_contr _ _).trans hk
    | ⟨1, _⟩ => exact rhs_col _ _)
  rw [el, er]

/-- The one-row bias broadcast down 1024 rows, at entry (p, q): row 0 of the bias at column q. -/
theorem bias_at (b : FVec Ideal S1x3072 .f32) (p : Fin 1024) (q : Fin 3072) :
    broadcastTo S1024x3072 b broadcasts_S1x3072_S1024x3072 (ix2 p q) = b (ix2 0 q) :=
  broadcastTo_apply b broadcasts_S1x3072_S1024x3072 (ix2 p q) (ix2 0 q) (fun d => by
    match d with
    | ⟨0, _⟩ => rfl
    | ⟨1, _⟩ => rfl)

/-- WHAT THE BODY STORES, at entry (p, q) of the output block. -/
theorem stored_at (a : Vec Ideal S1024x1024 .f32) (w : Vec Ideal S1024x3072 .bf16) (b : Vec Ideal S1x3072 .f32)
    (p : Fin 1024) (q : Fin 3072) :
    k0_pay1 (F := Ideal) a w b (ix2 p q) = (∑ k : Fin 1024, a (ix2 p k) * w (ix2 k q)) + b (ix2 0 q) := by
  unfold k0_pay1
  simp only [shapeCast_self]
  show matmul dot_S1024x1024_S1024x3072_S1024x3072_1_0_0_1_n_n none (truncf .bf16 a bitsLt_bf16_f32) w (constant (F := Ideal) S1024x3072 .f32 0x00000000#32) (ix2 p q)
      + broadcastTo S1024x3072 b broadcasts_S1x3072_S1024x3072 (ix2 p q) = _
  rw [product_at, bias_at]
  rfl

end Cert.KernelIdeal.Body

end
-- ==== Proof.Spec.lean ====
/-
  The function both programs compute, stated once over literal shapes.

  An activation tensor x of shape [32, 1024, 1024], a weight matrix w of shape [3072, 1024] and a bias vector of length
  3072 give the tensor of shape [32, 1024, 3072] whose entry (b, s, o) is the inner product of row (b, s) of x with row o
  of w, plus the bias at o:

      linear x w bias (b, s, o) = (Σ_{k < 1024} x[b, s, k] · w[o, k]) + bias[o].

  Entries are extended reals. Nothing here needs finiteness: each side of the certificate's equation will be this same
  sum of the same products, the factors in the same order.
-/
import Idealize.ShloMosaic.PureOps.Ideal
import Idealize.ShloMosaic.Lib.ValueIdx

noncomputable section

namespace Cert.Linear

open Idealize.ShloMosaic Idealize.ShloMosaic.ValueIdx

/-- Entry (b, s, o): row (b, s) of `x` against row `o` of `w`, plus the bias at `o`. -/
def linearAt (x : (⟨3, ![32, 1024, 1024]⟩ : Shape).Idx → EReal) (w : (⟨2, ![3072, 1024]⟩ : Shape).Idx → EReal)
    (bias : (⟨1, ![3072]⟩ : Shape).Idx → EReal) (b : Fin 32) (s : Fin 1024) (o : Fin 3072) : EReal :=
  (∑ k : Fin 1024, x (ix3 b s k) * w (ix2 o k)) + bias (ix1 o)

/-- The whole result tensor, index by index. -/
def linear (x : (⟨3, ![32, 1024, 1024]⟩ : Shape).Idx → EReal) (w : (⟨2, ![3072, 1024]⟩ : Shape).Idx → EReal)
    (bias : (⟨1, ![3072]⟩ : Shape).Idx → EReal) : (⟨3, ![32, 1024, 3072]⟩ : Shape).Idx → EReal :=
  fun i => linearAt x w bias (i 0) (i 1) (i 2)

/-- The same function on the flattened row axis: with the 32 × 1024 rows of `x` laid out as one axis of 32768 rows
    (`xf`), the weight transposed (`wt[k, o] = w[o, k]`) and the bias as a one-row matrix (`b2`), entry (r, o) is
    row r of `xf` against column o of `wt`, plus `b2[0, o]`. This is the form a row-tiled matrix product produces. -/
def flatAt (xf : (⟨2, ![32768, 1024]⟩ : Shape).Idx → EReal) (wt : (⟨2, ![1024, 3072]⟩ : Shape).Idx → EReal)
    (b2 : (⟨2, ![1, 3072]⟩ : Shape).Idx → EReal) (r : Fin 32768) (o : Fin 3072) : EReal :=
  (∑ k : Fin 1024, xf (ix2 r k) * wt (ix2 k o)) + b2 (ix2 0 o)

/-- The flattened result matrix, index by index. -/
def flat (xf : (⟨2, ![32768, 1024]⟩ : Shape).Idx → EReal) (wt : (⟨2, ![1024, 3072]⟩ : Shape).Idx → EReal)
    (b2 : (⟨2, ![1, 3072]⟩ : Shape).Idx → EReal) : (⟨2, ![32768, 3072]⟩ : Shape).Idx → EReal :=
  fun j => flatAt xf wt b2 (j 0) (j 1)

end Cert.Linear

end
-- ==== Proof.Blocks.lean ====
/-
  From what each grid point writes back to the region's whole output array.

  The grid has 32 points. Point t is given rows [1024·t, 1024·t + 1024) of the flattened activations, the whole transposed
  weight and the whole one-row bias, and writes back rows [1024·t, 1024·t + 1024) of the output, all 3072 columns. By the
  body's arithmetic, entry (p, q) of what it writes is

      (Σ_k xf[1024·t + p, k] · wt[k, q]) + b2[0, q],

  which is entry (1024·t + p, q) of ONE matrix, `flat xf wt b2`. The 32 row bands tile the 32768 rows (row r lies in band
  r / 1024), so after the run the output array is that matrix.
-/
import proofs.«169608_j88158498718371_1_alg».proof.Proof.Gen.KernelIdeal.Frame
import proofs.«169608_j88158498718371_1_alg».proof.Proof.Payload
import proofs.«169608_j88158498718371_1_alg».proof.Proof.Spec
import Idealize.ShloMosaic.Lib.Pipeline.Value
import Idealize.ShloMosaic.Lib.ValueIdx

noncomputable section

namespace Cert.KernelIdeal.Blocks

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ)

theorem origin : (![0, 0] : Fin 2 → Nat) = fun _ => 0 := funext fun a => by fin_cases a <;> rfl

/-- The block indices at every grid point: the activations' row band moves with the output's, every other coordinate is
    block 0, and the output's band index stays below 32. -/
theorem band_facts : ∀ t : Fin cfg0.N,
    win0_0.index t (0 : Fin 2) = win0_3.index t (0 : Fin 2)
    ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (1 : Fin 2) = 0 ∧ win0_3.index t (0 : Fin 2) ≤ 31 :=
  (by decide +kernel : ∀ t : Fin grid0.N, _)

/-- Every one of the 32 row bands is some point's. -/
theorem band_onto : ∀ q0 : Fin 32, ∃ t : Fin cfg0.N, win0_3.index t = ![q0.val, 0] :=
  (by decide +kernel : ∀ q0 : Fin 32, ∃ t : Fin grid0.N, win0_3.index t = ![q0.val, 0])

/-! ## The input blocks, read where the output's band says -/

/-- Row p of point t's activation block is row `band·1024 + p` of the flattened activations. -/
theorem read_rows (c : Dev nD) (t : Fin cfg0.N) (p k : Fin 1024) (r : Fin 32768)
    (hr : r.val = win0_3.index t (0 : Fin 2) * 1024 + p.val) :
    (iblk m c 0 t : FVec Ideal S1024x1024 .f32) (ix2 p k) = (V m c main_v13 : FVec Ideal S32768x1024 .f32) (ix2 r k) := by
  obtain ⟨e0, e1, -⟩ := band_facts t
  show (V m c main_v13 : FVec Ideal S32768x1024 .f32) (((cfg0.win 0).blk t).view.emb (ix2 p k)) = _
  have h : ((cfg0.win 0).blk t).view.emb (ix2 p k) = ix2 r k := by
    funext a; apply Fin.ext
    match a with
    | ⟨0, _⟩ => show win0_0.index t (0 : Fin 2) * 1024 + 1 * p.val = r.val; omega
    | ⟨1, _⟩ => show win0_0.index t (1 : Fin 2) * 1024 + 1 * k.val = k.val; omega
  rw [h]

/-- Point t's weight block is the whole transposed weight. -/
theorem read_weight (c : Dev nD) (t : Fin cfg0.N) (k : Fin 1024) (q : Fin 3072) :
    (iblk m c 1 t : FVec Ideal S1024x3072 .bf16) (ix2 k q) = (V m c main_v11 : FVec Ideal S1024x3072 .bf16) (ix2 k q) := by
  obtain ⟨-, -, e2, e3, -⟩ := band_facts t
  show (V m c main_v11 : FVec Ideal S1024x3072 .bf16) (((cfg0.win 1).blk t).view.emb (ix2 k q)) = _
  have h : ((cfg0.win 1).blk t).view.emb (ix2 k q) = ix2 k q := by
    funext a; apply Fin.ext
    match a with
    | ⟨0, _⟩ => show win0_1.index t (0 : Fin 2) * 1024 + 1 * k.val = k.val; omega
    | ⟨1, _⟩ => show win0_1.index t (1 : Fin 2) * 3072 + 1 * q.val = q.val; omega
  rw [h]

/-- Point t's bias block is the whole one-row bias. -/
theorem read_bias (c : Dev nD) (t : Fin cfg0.N) (q : Fin 3072) :
    (iblk m c 2 t : FVec Ideal S1x3072 .f32) (ix2 0 q) = (V m c main_v12 : FVec Ideal S1x3072 .f32) (ix2 0 q) := by
  obtain ⟨-, -, -, -, e4, e5, -⟩ := band_facts t
  show (V m c main_v12 : FVec Ideal S1x3072 .f32) (((cfg0.win 2).blk t).view.emb (ix2 0 q)) = _
  have h : ((cfg0.win 2).blk t).view.emb (ix2 (0 : Fin 1) q) = ix2 0 q := by
    funext a; apply Fin.ext
    match a with
    | ⟨0, _⟩ => show win0_2.index t (0 : Fin 2) * 1 + 1 * 0 = 0; omega
    | ⟨1, _⟩ => show win0_2.index t (1 : Fin 2) * 3072 + 1 * q.val = q.val; omega
  rw [h]

/-! ## What a point writes back -/

/-- WHAT POINT `t` WRITES BACK is band `t` of the one matrix `flat` of the region's three operand arrays. -/
theorem flushed_eq (c : Dev nD) (t : Fin cfg0.N) :
    (dats m 0 c).flushed 3 t
      = ((cfg0.win 3).blk t).view.read (Elt Ideal) (Cert.Linear.flat (V m c main_v13) (V m c main_v11) (V m c main_v12)) := by
  show (cfg0.win 3).cut (grid0.coords t) ((dats m 0 c).after 3 t) = _
  rw [after0_3]
  unfold out0_3
  rw [View.canon_unit_zero origin]
  simp only [View.ld_unit_zero (S := S1024x1024) origin, View.ld_unit_zero (S := S1024x3072) origin,
    View.ld_unit_zero (S := S1x3072) origin]
  obtain ⟨-, -, -, -, -, -, e6, -⟩ := band_facts t
  funext j
  obtain ⟨p, q, rfl⟩ : ∃ (p : Fin 1024) (q : Fin 3072), j = ix2 p q := ⟨j 0, j 1, eq_ix2 j⟩
  have hrow : ((((cfg0.win 3).blk t).view.emb (ix2 p q)) 0).val = win0_3.index t (0 : Fin 2) * 1024 + p.val := by
    show win0_3.index t (0 : Fin 2) * 1024 + 1 * p.val = _; omega
  have hcol : (((cfg0.win 3).blk t).view.emb (ix2 p q)) 1 = q := Fin.ext (by
    show win0_3.index t (1 : Fin 2) * 3072 + 1 * q.val = q.val; omega)
  show k0_pay1 (F := Ideal) (iblk m c 0 t) (iblk m c 1 t) (iblk m c 2 t) (ix2 p q)
    = Cert.Linear.flatAt (V m c main_v13) (V m c main_v11) (V m c main_v12)
        ((((cfg0.win 3).blk t).view.emb (ix2 p q)) 0) ((((cfg0.win 3).blk t).view.emb (ix2 p q)) 1)
  refine (Body.stored_at (iblk m c 0 t) (iblk m c 1 t) (iblk m c 2 t) p q).trans ?_
  rw [hcol]
  unfold Cert.Linear.flatAt
  refine congrArg₂ (· + ·) (Finset.sum_congr rfl fun k _ => ?_) (read_bias m c t q)
  rw [read_rows m c t p k _ hrow, read_weight m c t k q]

/-! ## The cover, and the array after the run -/

/-- An index of the output array is in point `t`'s block iff each coordinate is in the block's range on its axis. -/
theorem mem_band (t : Fin cfg0.N) (i : S32768x3072.Idx) :
    i ∈ ((cfg0.win 3).blk t).view.set ↔ ∀ a : Fin 2, win0_3.index t a * S1024x3072.size a ≤ (i a).val ∧ (i a).val < win0_3.index t a * S1024x3072.size a + S1024x3072.size a := by
  show i ∈ ((View.whole main_v14).slice (win0_3.rect t)).set ↔ _
  rw [View.set_slice_whole, Rect.mem_set_unit]
  exact Iff.rfl

/-- Every index of the output array lies in the band of the point whose band index is its row divided by 1024. -/
theorem covered (i : S32768x3072.Idx) :
    ∃ t : Fin cfg0.N, (cfg0.win 3).flush t = true ∧ i ∈ ((cfg0.win 3).blk t).view.set := by
  have hi0 : (i 0).val < 32768 := (i 0).isLt
  have hi1 : (i 1).val < 3072 := (i 1).isLt
  obtain ⟨t, ht⟩ := band_onto ⟨(i 0).val / 1024, by omega⟩
  have q0 : win0_3.index t (0 : Fin 2) = (i 0).val / 1024 := congrFun ht 0
  have q1 : win0_3.index t (1 : Fin 2) = 0 := congrFun ht 1
  refine ⟨t, flush0_3 t, ?_⟩
  rw [mem_band]
  intro a
  match a with
  | ⟨0, _⟩ => show win0_3.index t (0 : Fin 2) * 1024 ≤ (i 0).val ∧ (i 0).val < win0_3.index t (0 : Fin 2) * 1024 + 1024; omega
  | ⟨1, _⟩ => show win0_3.index t (1 : Fin 2) * 3072 ≤ (i 1).val ∧ (i 1).val < win0_3.index t (1 : Fin 2) * 3072 + 3072; omega

/-- THE OUTPUT ARRAY after the run is the one matrix `flat` of the region's three operand arrays. -/
theorem final (c : Dev nD) :
    (dats m 0 c).arrAt 3 cfg0.N = Cert.Linear.flat (V m c main_v13) (V m c main_v11) (V m c main_v12) :=
  (dats m 0 c).arrAt_eq_of_cover 3 _ (fun t _ => flushed_eq m c t) covered

end Cert.KernelIdeal.Blocks

end
-- ==== Proof.Entry.lean ====
/-
  The three arrays the kernel region is launched on, as functions of the program's arguments.

  Before the region the program (i) flattens the activations' two leading axes, 32 × 1024 rows becoming one axis of 32768
  rows; (ii) builds the merged weight — the weight plus a correction that is zero on its first 1024 rows and, below, the two
  scaled rank-5 products stacked —, transposes it and changes its float format (the identity on extended reals); (iii) lays
  the bias out as a one-row matrix. Each is named here as a pure function and read at an index:

      rows x [b·1024 + s, k] = x[b, s, k],      transposedWeight w [k, o] = w[o, k],      biasRow β [0, o] = β[o].

  The merged weight itself is carried as ONE term (`merged`) and never opened: the reference builds the same term.
-/
import proofs.«169608_j88158498718371_1_alg».proof.Proof.Gen.KernelIdeal.Frame
import Idealize.ShloMosaic.Lib.Pipeline.Value
import Idealize.ShloMosaic.Lib.ValueIdx
import Idealize.ShloMosaic.Lib.StableHlo.Run

noncomputable section

namespace Cert.KernelIdeal.Entry

open Cert.KernelIdeal Cert.KernelIdeal.Gen Idealize.ShloMosaic Idealize.ShloMosaic.TcCoe Idealize.SL.Sem
open Idealize.ShloMosaic.ValueIdx Idealize.ShloMosaic.StableHlo

section Terms
variable {F : FTy → Type} [FloatOps F]

/-- The activations with their two leading axes flattened to one axis of rows. -/
def rows (x : FVec F S32x1024x1024 .f32) : FVec F S32768x1024 .f32 :=
  shapeCast S32768x1024 x shapeCasts_S32x1024x1024_S32768x1024

/-- The merged weight: `w` plus the padded stack of the two scaled low-rank products `s₀·(B₀ A₀)` and `s₁·(B₁ A₁)`. -/
def merged (w : FVec F S3072x1024 .f32) (a0 a1 : FVec F S5x1024 .f32) (b0 b1 : FVec F S1024x5 .f32) (s0 s1 : FVec F S_ .f32) :
    FVec F S3072x1024 .f32 :=
  addf w (concatenate S3072x1024 0 [⟨S1024x1024, (broadcastInDim S1024x1024 ![] bcast_S_S1024x1024 (constant S_ .f32 0x00000000#32))⟩, ⟨S2048x1024, (concatenate S2048x1024 0 [⟨S1024x1024, (mulf (broadcastInDim S1024x1024 ![] bcast_S_S1024x1024 s0) (Host.dotGeneral dot_S1024x5_S5x1024_S1024x1024_1_0_0_1_n_n none b0 a0))⟩, ⟨S1024x1024, (mulf (broadcastInDim S1024x1024 ![] bcast_S_S1024x1024 s1) (Host.dotGeneral dot_S1024x5_S5x1024_S1024x1024_1_0_0_1_n_n none b1 a1))⟩] concatenates_S1024x1024_S1024x1024_S2048x1024_d0)⟩] concatenates_S1024x1024_S2048x1024_S3072x1024_d0)

/-- A weight matrix transposed, in the narrower float format. -/
def transposedWeight (w : FVec F S3072x1024 .f32) : FVec F S1024x3072 .bf16 :=
  truncf .bf16 (transpose S1024x3072 [1, 0] w transposes_S3072x1024_S1024x3072_1_0) bitsLt_bf16_f32

/-- The bias vector as a one-row matrix. -/
def biasRow (β : FVec F S3072 .f32) : FVec F S1x3072 .f32 :=
  shapeCast S1x3072 β shapeCasts_S3072_S1x3072

end Terms

/-! ## Read at an index (extended reals) -/

/-- Row `b·1024 + s` of the flattened activations is row `(b, s)` of the tensor. -/
theorem rows_at (x : FVec Ideal S32x1024x1024 .f32) (b : Fin 32) (s : Fin 1024) (k : Fin 1024) (r : Fin 32768)
    (hr : r.val = b.val * 1024 + s.val) : rows x (ix2 r k) = x (ix3 b s k) :=
  shapeCast_apply x shapeCasts_S32x1024x1024_S32768x1024 (ix2 r k) (ix3 b s k) (by
    rw [Shape.rowMajor_val_three, Shape.rowMajor_val_two]
    show (b.val * 1024 + s.val) * 1024 + k.val = r.val * 1024 + k.val
    rw [hr])

/-- Entry `(k, o)` of the transposed weight is entry `(o, k)` of the weight. -/
theorem transposedWeight_at (w : FVec Ideal S3072x1024 .f32) (k : Fin 1024) (o : Fin 3072) :
    transposedWeight w (ix2 k o) = w (ix2 o k) :=
  transpose_apply [1, 0] w transposes_S3072x1024_S1024x3072_1_0 (ix2 k o) (ix2 o k) (fun d => by
    match d with
    | ⟨0, _⟩ => rfl
    | ⟨1, _⟩ => rfl)

/-- Entry `(0, o)` of the one-row bias is entry `o` of the bias. -/
theorem biasRow_at (β : FVec Ideal S3072 .f32) (o : Fin 3072) : biasRow β (ix2 0 o) = β (ix1 o) :=
  shapeCast_apply β shapeCasts_S3072_S1x3072 (ix2 0 o) (ix1 o) (by
    rw [Shape.rowMajor_val_one, Shape.rowMajor_val_two]
    show o.val = 0 * 3072 + o.val
    omega)

/-! ## The region's arrays are these functions of the arguments -/

section Arrays
variable {F : FTy → Type} [FloatOps F]
variable (m : (ℓ : Loc nD τ sig) → Buf (Elt F) ℓ)

/-- The region's first operand: the flattened activations. -/
theorem entry_rows (c : Dev nD) :
    (V m c main_v13 : FVec F S32768x1024 .f32) = rows (m ((c : Thread nD τ).loc main_arg0)) := by
  show StableHlo.after hostOps0 (fun b => m (c, b)) (Proc.devRef .tc main_v13) = _
  after_results
  rfl

/-- The region's second operand: the merged weight, transposed. -/
theorem entry_weight (c : Dev nD) :
    (V m c main_v11 : FVec F S1024x3072 .bf16) = transposedWeight (merged (m ((c : Thread nD τ).loc main_arg1))
      (m ((c : Thread nD τ).loc main_arg3)) (m ((c : Thread nD τ).loc main_arg4)) (m ((c : Thread nD τ).loc main_arg5))
      (m ((c : Thread nD τ).loc main_arg6)) (m ((c : Thread nD τ).loc main_arg7)) (m ((c : Thread nD τ).loc main_arg8))) := by
  show StableHlo.after hostOps0 (fun b => m (c, b)) (Proc.devRef .tc main_v11) = _
  after_results
  rfl

/-- The region's third operand: the bias as one row. -/
theorem entry_bias (c : Dev nD) :
    (V m c main_v12 : FVec F S1x3072 .f32) = biasRow (m ((c : Thread nD τ).loc main_arg2)) := by
  show StableHlo.after hostOps0 (fun b => m (c, b)) (Proc.devRef .tc main_v12) = _
  after_results
  rfl

end Arrays

end Cert.KernelIdeal.Entry

end
-- ==== Proof.KernelRun.lean ====
/-
  The kernel program's run, with its result named.

  After the region the program reshapes the 32768 × 3072 output matrix to 32 × 1024 × 3072: entry (b, s, o) of the
  result is entry (1024·b + s, o) of the matrix. The matrix is `flat` of the flattened activations, the transposed merged
  weight and the one-row bias, so that entry is

      (Σ_k x[b, s, k] · merged[o, k]) + β[o] = linear x merged β (b, s, o).
-/
import proofs.«169608_j88158498718371_1_alg».proof.Proof.Gen.KernelIdeal.Frame
import proofs.«169608_j88158498718371_1_alg».proof.Proof.Blocks
import proofs.«169608_j88158498718371_1_alg».proof.Proof.Entry
import proofs.«169608_j88158498718371_1_alg».proof.Proof.Spec
import Idealize.ShloMosaic.Lib.Pipeline.Value
import Idealize.ShloMosaic.Lib.ValueIdx
import Idealize.ShloMosaic.Lib.StableHlo.Run

noncomputable section

namespace Cert.KernelIdeal.KernelRun

open Cert.KernelIdeal Cert.KernelIdeal.Gen Idealize.ShloMosaic Idealize.ShloMosaic.TcCoe Idealize.SL.Sem
open Idealize.ShloMosaic.ValueIdx Idealize.ShloMosaic.StableHlo

/-- The flat matrix of the three operand arrays, reshaped, is `linear` of the arguments they were made from. -/
theorem tensor_of_flat (x : FVec Ideal S32x1024x1024 .f32) (w : FVec Ideal S3072x1024 .f32) (β : FVec Ideal S3072 .f32) :
    shapeCast S32x1024x3072 (Cert.Linear.flat (Entry.rows x) (Entry.transposedWeight w) (Entry.biasRow β))
        shapeCasts_S32768x3072_S32x1024x3072
      = Cert.Linear.linear x w β := by
  funext i
  obtain ⟨b, s, o, rfl⟩ : ∃ (b : Fin 32) (s : Fin 1024) (o : Fin 3072), i = ix3 b s o := ⟨i 0, i 1, i 2, eq_ix3 i⟩
  have hr : b.val * 1024 + s.val < 32768 := by have := b.isLt; have := s.isLt; omega
  refine (shapeCast_apply _ shapeCasts_S32768x3072_S32x1024x3072 (ix3 b s o) (ix2 ⟨b.val * 1024 + s.val, hr⟩ o) (by
    rw [Shape.rowMajor_val_two, Shape.rowMajor_val_three]; rfl)).trans ?_
  show Cert.Linear.flatAt _ _ _ ⟨b.val * 1024 + s.val, hr⟩ o = Cert.Linear.linearAt x w β b s o
  unfold Cert.Linear.flatAt Cert.Linear.linearAt
  refine congrArg₂ (· + ·) (Finset.sum_congr rfl fun k _ => ?_) (Entry.biasRow_at β o)
  rw [Entry.rows_at x b s k _ rfl, Entry.transposedWeight_at w k o]

variable (m : (ℓ : Loc nD τ sig) → Buf (Elt Ideal) ℓ) (ρ : Dev nD → PrngReg)

/-- The merged weight of core `c`'s launch memory. -/
abbrev mergedOf (c : Dev nD) : FVec Ideal S3072x1024 .f32 :=
  Entry.merged (m ((c.tc : Thread nD τ).loc main_arg1)) (m ((c.tc : Thread nD τ).loc main_arg3))
    (m ((c.tc : Thread nD τ).loc main_arg4)) (m ((c.tc : Thread nD τ).loc main_arg5)) (m ((c.tc : Thread nD τ).loc main_arg6))
    (m ((c.tc : Thread nD τ).loc main_arg7)) (m ((c.tc : Thread nD τ).loc main_arg8))

/-- What the line after the region leaves in the program's result buffer. -/
theorem tail_eq (c : Dev nD) :
    Pipeline.afterTail₀ cfgs (dats m) 0 (V0 m) [hostOps1] c main_v15
      = Cert.Linear.linear (m ((c.tc : Thread nD τ).loc main_arg0)) (mergedOf m c) (m ((c.tc : Thread nD τ).loc main_arg2)) := by
  unfold Pipeline.afterTail₀
  show StableHlo.after hostOps1 _ (Proc.devRef .tc main_v15) = _
  after_results
  have hA : Pipeline.withArrays (cfgs 0).spec c (V0 m c) (fun w => (dats m 0 c).arrAt w (cfgs 0).N) (Proc.devRef .tc main_v14)
      = Cert.Linear.flat (Entry.rows (F := Ideal) (m ((c.tc : Thread nD τ).loc main_arg0)))
          (Entry.transposedWeight (F := Ideal) (mergedOf m c))
          (Entry.biasRow (F := Ideal) (m ((c.tc : Thread nD τ).loc main_arg2))) :=
    (Pipeline.withArrays_arr spec0 launch0.win.arr_inj c _ _ 3).trans
      ((Blocks.final m c).trans (by rw [Entry.entry_rows m c, Entry.entry_weight m c, Entry.entry_bias m c]))
  rw [hA]
  exact tensor_of_flat _ _ _

/-- THE KERNEL PROGRAM'S RUN: every weakly fair execution terminates with the result buffer at `linear` of the
    activations, the merged weight and the bias, and the arguments unchanged. -/
theorem run : θ_run defs (onTc (τ := τ) (main (F := Ideal))) ⟨m, fun _ => 0, ρ⟩ fun r => ∀ c : Dev nD,
      r.2.mem ((c.tc : Thread nD τ).loc main_v15)
        = Cert.Linear.linear (m ((c.tc : Thread nD τ).loc main_arg0)) (mergedOf m c) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun r h c => ⟨((h c).2 main_v15 (Pipeline.mem_restRefs_of main_v15 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c)⟩)
    (run_main m ρ)

end Cert.KernelIdeal.KernelRun

end
-- ==== Proof.RefValue.lean ====
/-
  The reference's result is `linear` of the activations, ITS merged weight and the bias.

  The reference contracts the activations' last axis against the merged weight's last axis in one product, entry (b, s, o)
  being Σ_k x[b, s, k] · w'[o, k], and adds the bias broadcast over the two leading axes, which reads β[o]. Its merged
  weight w' (the ninth stage of its program) is carried as one term and not opened.
-/
import proofs.«169608_j88158498718371_1_alg».proof.Proof.Gen.ReferenceIdeal.Read
import proofs.«169608_j88158498718371_1_alg».proof.Proof.Spec

noncomputable section

namespace Cert.ReferenceIdeal.RefValue

open Cert.ReferenceIdeal Cert.ReferenceIdeal.Read Idealize.ShloMosaic Idealize.ShloMosaic.ValueIdx

/-- The product's left operand at output index `i` and contraction index `k`: row `(i₀, i₁)`, entry `k`. -/
theorem left_index (i : S32x1024x3072.Idx) (k : Fin 1024) : lidx_main_v10 i k = ix3 (i 0) (i 1) k :=
  funext fun a => by
    match a with
    | ⟨0, _⟩ => rfl
    | ⟨1, _⟩ => rfl
    | ⟨2, _⟩ => rfl

/-- The product's right operand there: row `i₂` of the weight, entry `k`. -/
theorem right_index (i : S32x1024x3072.Idx) (k : Fin 1024) : ridx_main_v10 i k = ix2 (i 2) k :=
  funext fun a => by
    match a with
    | ⟨0, _⟩ => rfl
    | ⟨1, _⟩ => rfl

/-- The twice-broadcast bias at output index `i` reads the bias at `i₂`. -/
theorem bias_index (i : S32x1024x3072.Idx) : idx_main_v11 (idx_main_v12 i) = ix1 (i 2) :=
  funext fun a => by
    match a with
    | ⟨0, _⟩ => rfl

/-- THE REFERENCE'S RESULT, as one function of its arguments. -/
theorem result_eq (x0 : (⟨S32x1024x1024, .f32⟩ : BufTy).Contents (Elt Ideal)) (x1 : (⟨S3072x1024, .f32⟩ : BufTy).Contents (Elt Ideal))
    (x2 : (⟨S3072, .f32⟩ : BufTy).Contents (Elt Ideal)) (x3 x4 : (⟨S5x1024, .f32⟩ : BufTy).Contents (Elt Ideal))
    (x5 x6 : (⟨S1024x5, .f32⟩ : BufTy).Contents (Elt Ideal)) (x7 x8 : (⟨S_, .f32⟩ : BufTy).Contents (Elt Ideal)) :
    val_main_v13 (F := Ideal) x0 x1 x2 x3 x4 x5 x6 x7 x8
      = Cert.Linear.linear x0 (val_main_v9 (F := Ideal) x1 x3 x4 x5 x6 x7 x8) x2 := by
  funext i
  rw [val_main_v13_apply, val_main_v10_apply, val_main_v12_apply, val_main_v11_apply]
  simp only [left_index, right_index, bias_index]
  rfl

end Cert.ReferenceIdeal.RefValue

end
-- ==== Proof.Bridge.lean ====
/-
  The two programs build the merged weight by the same operations on the same arguments.

  Both compute `W + pad (stack (s₀·(B₀ A₀)) (s₁·(B₁ A₁)))` — the two rank-5 products, each scaled by a broadcast scalar,
  stacked on the row axis, padded with 1024 zero rows on top, and added to `W` — operation for operation, in the same
  order, with the same zero constant. The kernel program's term and the reference's ninth stage are therefore one term,
  and no arithmetic on its entries is needed anywhere in the certificate.
-/
import proofs.«169608_j88158498718371_1_alg».proof.Proof.Entry
import proofs.«169608_j88158498718371_1_alg».proof.Proof.Gen.ReferenceIdeal.Read

noncomputable section

namespace Cert.Proof.Bridge

open Idealize.ShloMosaic

/-- The kernel program's merged weight IS the reference's merged weight. -/
theorem merged_eq (w : FVec Ideal Cert.KernelIdeal.S3072x1024 .f32) (a0 a1 : FVec Ideal Cert.KernelIdeal.S5x1024 .f32)
    (b0 b1 : FVec Ideal Cert.KernelIdeal.S1024x5 .f32) (s0 s1 : FVec Ideal Cert.KernelIdeal.S_ .f32) :
    Cert.KernelIdeal.Entry.merged (F := Ideal) w a0 a1 b0 b1 s0 s1
      = Cert.ReferenceIdeal.Read.val_main_v9 (F := Ideal) w a0 a1 b0 b1 s0 s1 := rfl

end Cert.Proof.Bridge

end
-- ==== Proof.lean ====
/-
  A fused projection with a low-rank correction: the tiled kernel against the one-line reference.

  From activations x [32, 1024, 1024], a weight W [3072, 1024], a bias β [3072], low-rank factors A₀, A₁ [5, 1024] and
  B₀, B₁ [1024, 5], and scalars s₀, s₁, both programs first form the merged weight

      M = W + pad (stack (s₀·(B₀ A₀)) (s₁·(B₁ A₁)))          (3072 × 1024; the first 1024 rows of the correction are zero)

  by the same operations in the same order. The reference then contracts x against M in one product and adds β:
  result[b, s, o] = Σ_k x[b, s, k] · M[o, k] + β[o]. The kernel program flattens x to 32768 rows, transposes M, lays β out
  as one row, and runs a row-tiled matrix product over 32 grid points — each point multiplies a band of 1024 rows by the
  whole transposed weight into a zero accumulator and adds the bias row — then reshapes the 32768 × 3072 result back.

  Over the extended reals a change of float format is the identity and a product into a zero accumulator is the plain
  sum, so entry (1024·b + s, o) of the kernel's matrix is the very sum the reference forms at (b, s, o): the same
  products x[b, s, k] · M[o, k], factors in the same order, summed over the same k, plus the same β[o]. No law beyond
  re-indexing is used, so finiteness of the inputs is never needed.

  The modules: Spec (the function `linear`, and its flattened form `flat`), Payload (a grid point's arithmetic at an
  entry), Entry (the region's three operand arrays as functions of the arguments), Blocks (the row bands tile the output:
  the array after the run is `flat`), KernelRun (the reshape after the region: the kernel program's result is `linear`),
  RefValue (the reference's result is `linear`), Bridge (the two merged weights are one term).
-/
import proofs.«169608_j88158498718371_1_alg».proof.Defs
import proofs.«169608_j88158498718371_1_alg».proof.Proof.Gen.Kernel
import proofs.«169608_j88158498718371_1_alg».proof.Proof.Gen.Kernel.Skeleton
import proofs.«169608_j88158498718371_1_alg».proof.Proof.Gen.Kernel.Launch
import proofs.«169608_j88158498718371_1_alg».proof.Proof.Gen.Kernel.Points
import proofs.«169608_j88158498718371_1_alg».proof.Proof.Gen.Kernel.Frame
import proofs.«169608_j88158498718371_1_alg».proof.Proof.Gen.KernelIdeal
import proofs.«169608_j88158498718371_1_alg».proof.Proof.Gen.KernelIdeal.Skeleton
import proofs.«169608_j88158498718371_1_alg».proof.Proof.Gen.KernelIdeal.Launch
import proofs.«169608_j88158498718371_1_alg».proof.Proof.Gen.KernelIdeal.Points
import proofs.«169608_j88158498718371_1_alg».proof.Proof.Gen.KernelIdeal.Frame
import proofs.«169608_j88158498718371_1_alg».proof.Proof.Gen.ReferenceIdeal
import proofs.«169608_j88158498718371_1_alg».proof.Proof.Gen.ReferenceIdeal.Run
import proofs.«169608_j88158498718371_1_alg».proof.Proof.Gen.ReferenceIdeal.Read
import proofs.«169608_j88158498718371_1_alg».proof.Proof.Gen.Pre_finite_inputs
import Idealize.ShloMosaic.Adequacy
import Idealize.ShloMosaic.Init
import proofs.«169608_j88158498718371_1_alg».proof.Proof.KernelRun
import proofs.«169608_j88158498718371_1_alg».proof.Proof.RefValue
import proofs.«169608_j88158498718371_1_alg».proof.Proof.Bridge

noncomputable section

namespace Cert.Proof

open Idealize.ShloMosaic Idealize.SL.Sem

/-- The word-level kernel program terminates without fault and leaves its arguments as launched. -/
theorem frame_kernel : Cert.frame_Kernel := fun m ρ _ => Cert.Kernel.Gen.frame m ρ

/-- So does the kernel program read over the extended reals. -/
theorem frame_kernelIdeal : Cert.frame_KernelIdeal := fun m ρ _ => Cert.KernelIdeal.Gen.frame m ρ

/-- So does the reference: its run, with the statement about the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealized kernel program is the printed program's own text read over the extended reals: nothing was rewritten. -/
theorem preserves : Cert.preserves_Kernel_KernelIdeal := trivial

/-- From memories that agree on the arguments both programs end with `linear x M β` in their result buffers: the kernel
    program by its run, the reference by its run read stage by stage, the two merged weights being one term. -/
theorem algebraic : Cert.algebraic_KernelIdeal_ReferenceIdeal := by
  intro m ρ m' ρ' _ hagree
  refine ⟨fun c => Cert.Linear.linear (m ((c.tc : Thread Cert.KernelIdeal.nD Cert.KernelIdeal.τ).loc Cert.KernelIdeal.main_arg0))
      (Cert.KernelIdeal.KernelRun.mergedOf m c) (m ((c.tc : Thread Cert.KernelIdeal.nD Cert.KernelIdeal.τ).loc Cert.KernelIdeal.main_arg2)),
    Cert.KernelIdeal.KernelRun.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8⟩ := hagree c
  rw [Cert.ReferenceIdeal.Read.val_main_v13_eq, Cert.ReferenceIdeal.RefValue.result_eq, h0, h1, h2, h3, h4, h5, h6, h7, h8,
    ← Bridge.merged_eq]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
